-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x768 : Shape := ⟨3, ![8, 128, 768]⟩
abbrev S1536x384 : Shape := ⟨2, ![1536, 384]⟩
abbrev S384 : Shape := ⟨1, ![384]⟩
abbrev S384x100 : Shape := ⟨2, ![384, 100]⟩
abbrev S100 : Shape := ⟨1, ![100]⟩
abbrev S_ : Shape := ⟨0, ![]⟩

class Facts : Prop where
  bcast_S_S8x128x768 : S_.BroadcastsInDim S8x128x768 (![] : Fin 0 → Fin S8x128x768.rank)
  reducesTo_S8x128x768_S_d0_1_2 : S8x128x768.ReducesTo [0, 1, 2] S_
  h_S_ : 0 < S_.numel
  bcast_S_S1536x384 : S_.BroadcastsInDim S1536x384 (![] : Fin 0 → Fin S1536x384.rank)
  reducesTo_S1536x384_S_d0_1 : S1536x384.ReducesTo [0, 1] S_
  bcast_S_S384 : S_.BroadcastsInDim S384 (![] : Fin 0 → Fin S384.rank)
  reducesTo_S384_S_d0 : S384.ReducesTo [0] S_
  bcast_S_S384x100 : S_.BroadcastsInDim S384x100 (![] : Fin 0 → Fin S384x100.rank)
  reducesTo_S384x100_S_d0_1 : S384x100.ReducesTo [0, 1] S_
  bcast_S_S100 : S_.BroadcastsInDim S100 (![] : Fin 0 → Fin S100.rank)
  reducesTo_S100_S_d0 : S100.ReducesTo [0] S_

variable [Facts]

def fn_part1 {F : FTy → Type} [FloatOps F] (main_arg4 : FVec F S100 .f32) (main_v13 : IVec S_ 1) (main_v16 : IVec S384x100 1) : IVec S_ 1 :=
  let main_c_5 : IVec S_ 1 := constantI S_ 1 1#1
  let main_v17 : IVec S_ 1 := (fun x v => Host.reduce IntOp.andi x v reducesTo_S384x100_S_d0_1 h_S_) main_v16 main_c_5
  let main_v18 : IVec S_ 1 := andi main_v13 main_v17
  let main_v19 : FVec F S100 .f32 := Host.absf main_arg4
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  main_v23

def fn {F : FTy → Type} [FloatOps F] (main_arg0 : FVec F S8x128x768 .f32) (main_arg1 : FVec F S1536x384 .f32) (main_arg2 : FVec F S384 .f32) (main_arg3 : FVec F S384x100 .f32) (main_arg4 : FVec F S100 .f32) : IVec S_ 1 :=
  let main_v0 : FVec F S8x128x768 .f32 := Host.absf main_arg0
  let main_cst : FVec F S_ .f32 := constant S_ .f32 0x7F800000#32
  let main_v1 : FVec F S8x128x768 .f32 := broadcastInDim S8x128x768 ![] bcast_S_S8x128x768 main_cst
  let main_v2 : IVec S8x128x768 1 := cmpf .olt main_v0 main_v1
  let main_c : IVec S_ 1 := constantI S_ 1 1#1
  let main_v3 : IVec S_ 1 := (fun x v => Host.reduce IntOp.andi x v reducesTo_S8x128x768_S_d0_1_2 h_S_) main_v2 main_c
  let main_v4 : FVec F S1536x384 .f32 := Host.absf main_arg1
  let main_cst_0 : FVec F S_ .f32 := constant S_ .f32 0x7F800000#32
  let main_v5 : FVec F S1536x384 .f32 := broadcastInDim S1536x384 ![] bcast_S_S1536x384 main_cst_0
  let main_v6 : IVec S1536x384 1 := cmpf .olt main_v4 main_v5
  let main_c_1 : IVec S_ 1 := constantI S_ 1 1#1
  let main_v7 : IVec S_ 1 := (fun x v => Host.reduce IntOp.andi x v reducesTo_S1536x384_S_d0_1 h_S_) main_v6 main_c_1
  let main_v8 : IVec S_ 1 := andi main_v3 main_v7
  let main_v9 : FVec F S384 .f32 := Host.absf main_arg2
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S384x100 .f32 := Host.absf main_arg3
  let main_cst_4 : FVec F S_ .f32 := constant S_ .f32 0x7F800000#32
  let main_v15 : FVec F S384x100 .f32 := broadcastInDim S384x100 ![] bcast_S_S384x100 main_cst_4
  let main_v16 : IVec S384x100 1 := cmpf .olt main_v14 main_v15
  fn_part1 (F := F) main_arg4 main_v13 main_v16
-- ==== Kernel.lean ====
abbrev S8x128x768 : Shape := ⟨3, ![8, 128, 768]⟩
abbrev S1536x384 : Shape := ⟨2, ![1536, 384]⟩
abbrev S384 : Shape := ⟨1, ![384]⟩
abbrev S384x100 : Shape := ⟨2, ![384, 100]⟩
abbrev S100 : Shape := ⟨1, ![100]⟩
abbrev S768x384 : Shape := ⟨2, ![768, 384]⟩
abbrev S8x128x384 : Shape := ⟨3, ![8, 128, 384]⟩
abbrev S1x128x768 : Shape := ⟨3, ![1, 128, 768]⟩
abbrev S1x128x384 : Shape := ⟨3, ![1, 128, 384]⟩
abbrev S128x768 : Shape := ⟨2, ![128, 768]⟩
abbrev S128x384 : Shape := ⟨2, ![128, 384]⟩
abbrev S8x128x128x100 : Shape := ⟨4, ![8, 128, 128, 100]⟩
abbrev S1x32x384 : Shape := ⟨3, ![1, 32, 384]⟩
abbrev S1x32x128x100 : Shape := ⟨4, ![1, 32, 128, 100]⟩
abbrev S32x384 : Shape := ⟨2, ![32, 384]⟩
abbrev S32x1x384 : Shape := ⟨3, ![32, 1, 384]⟩
abbrev S32x128x384 : Shape := ⟨3, ![32, 128, 384]⟩
abbrev S1x1x384 : Shape := ⟨3, ![1, 1, 384]⟩
abbrev S4096x384 : Shape := ⟨2, ![4096, 384]⟩
abbrev S4096x100 : Shape := ⟨2, ![4096, 100]⟩
abbrev S1x100 : Shape := ⟨2, ![1, 100]⟩
abbrev S32x128x100 : Shape := ⟨3, ![32, 128, 100]⟩

abbrev nBuf : Space → Nat
  | .hbm => 10
  | .vmem => 17
  | .smem => 0
  | _ => 0

abbrev bufTy : (tb : Table) → Fin (tcTables nBuf tb) → BufTy
  | .hbm, ⟨0, _⟩ => ⟨S8x128x768, .f32⟩
  | .hbm, ⟨1, _⟩ => ⟨S1536x384, .f32⟩
  | .hbm, ⟨2, _⟩ => ⟨S384, .f32⟩
  | .hbm, ⟨3, _⟩ => ⟨S384x100, .f32⟩
  | .hbm, ⟨4, _⟩ => ⟨S100, .f32⟩
  | .hbm, ⟨5, _⟩ => ⟨S768x384, .f32⟩
  | .hbm, ⟨6, _⟩ => ⟨S768x384, .f32⟩
  | .hbm, ⟨7, _⟩ => ⟨S8x128x384, .f32⟩
  | .hbm, ⟨8, _⟩ => ⟨S8x128x384, .f32⟩
  | .hbm, ⟨9, _⟩ => ⟨S8x128x128x100, .f32⟩
  | .local _ .vmem, ⟨0, _⟩ => ⟨S1x128x768, .f32⟩
  | .local _ .vmem, ⟨1, _⟩ => ⟨S1x128x768, .f32⟩
  | .local _ .vmem, ⟨2, _⟩ => ⟨S768x384, .f32⟩
  | .local _ .vmem, ⟨3, _⟩ => ⟨S768x384, .f32⟩
  | .local _ .vmem, ⟨4, _⟩ => ⟨S1x128x384, .f32⟩
  | .local _ .vmem, ⟨5, _⟩ => ⟨S1x128x384, .f32⟩
  | .local _ .vmem, ⟨6, _⟩ => ⟨S1x128x384, .f32⟩
  | .local _ .vmem, ⟨7, _⟩ => ⟨S1x128x384, .f32⟩
  | .local _ .vmem, ⟨8, _⟩ => ⟨S1x128x384, .f32⟩
  | .local _ .vmem, ⟨9, _⟩ => ⟨S1x128x384, .f32⟩
  | .local _ .vmem, ⟨10, _⟩ => ⟨S1x32x384, .f32⟩
  | .local _ .vmem, ⟨11, _⟩ => ⟨S1x32x384, .f32⟩
  | .local _ .vmem, ⟨12, _⟩ => ⟨S384x100, .f32⟩
  | .local _ .vmem, ⟨13, _⟩ => ⟨S384, .f32⟩
  | .local _ .vmem, ⟨14, _⟩ => ⟨S100, .f32⟩
  | .local _ .vmem, ⟨15, _⟩ => ⟨S1x32x128x100, .f32⟩
  | .local _ .vmem, ⟨16, _⟩ => ⟨S1x32x128x100, .f32⟩
  | _, _ => ⟨S8x128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x128x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x32x384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S384x100 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S100 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x32x128x100 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  slices_S1536x384_S768x384_0_0 : S1536x384.Slices ![0, 0] S768x384
  slices_S1536x384_S768x384_768_0 : S1536x384.Slices ![768, 0] S768x384
  inb_S1x128x768_S1x128x768_0_0_0 : ∀ a, (![0, 0, 0] : Fin 3 → Nat) a + S1x128x768.size a ≤ S1x128x768.size a
  h_S1x128x768 : 0 < S1x128x768.numel
  shapeCasts_S1x128x768_S128x768 : S1x128x768.ShapeCasts S128x768
  bitsLt_bf16_f32 : FTy.bits .bf16 < FTy.bits .f32
  inb_S768x384_S768x384_0_0 : ∀ a, (![0, 0] : Fin 2 → Nat) a + S768x384.size a ≤ S768x384.size a
  h_S768x384 : 0 < S768x384.numel
  shapeCasts_S768x384_S768x384 : S768x384.ShapeCasts S768x384
  inb_S1x128x384_S1x128x384_0_0_0 : ∀ a, (![0, 0, 0] : Fin 3 → Nat) a + S1x128x384.size a ≤ S1x128x384.size a
  h_S1x128x384 : 0 < S1x128x384.numel
  shapeCasts_S1x128x384_S128x384 : S1x128x384.ShapeCasts S128x384
  shapeCasts_S128x384_S1x128x384 : S128x384.ShapeCasts S1x128x384
  inb_S1x32x384_S1x32x384_0_0_0 : ∀ a, (![0, 0, 0] : Fin 3 → Nat) a + S1x32x384.size a ≤ S1x32x384.size a
  h_S1x32x384 : 0 < S1x32x384.numel
  shapeCasts_S1x32x384_S32x384 : S1x32x384.ShapeCasts S32x384
  inb_S384_S384_0 : ∀ a, (![0] : Fin 1 → Nat) a + S384.size a ≤ S384.size a
  h_S384 : 0 < S384.numel
  shapeCasts_S32x384_S32x1x384 : S32x384.ShapeCasts S32x1x384
  broadcasts_S32x1x384_S32x128x384 : S32x1x384.Broadcasts S32x128x384
  broadcasts_S1x128x384_S32x128x384 : S1x128x384.Broadcasts S32x128x384
  shapeCasts_S384_S1x1x384 : S384.ShapeCasts S1x1x384
  broadcasts_S1x1x384_S32x128x384 : S1x1x384.Broadcasts S32x128x384
  shapeCasts_S32x128x384_S4096x384 : S32x128x384.ShapeCasts S4096x384
  inb_S384x100_S384x100_0_0 : ∀ a, (![0, 0] : Fin 2 → Nat) a + S384x100.size a ≤ S384x100.size a
  h_S384x100 : 0 < S384x100.numel
  inb_S100_S100_0 : ∀ a, (![0] : Fin 1 → Nat) a + S100.size a ≤ S100.size a
  h_S100 : 0 < S100.numel
  shapeCasts_S100_S1x100 : S100.ShapeCasts S1x100
  broadcasts_S1x100_S4096x100 : S1x100.Broadcasts S4096x100
  shapeCasts_S4096x100_S32x128x100 : S4096x100.ShapeCasts S32x128x100
  inb_S1x32x128x100_S1x32x128x100_0_0_0_0 : ∀ a, (![0, 0, 0, 0] : Fin 4 → Nat) a + S1x32x128x100.size a ≤ S1x32x128x100.size a
  h_S1x32x128x100 : 0 < S1x32x128x100.numel
  shapeCasts_S1x32x128x100_S32x128x100 : S1x32x128x100.ShapeCasts S32x128x100
  shapeCasts_S32x128x100_S1x32x128x100 : S32x128x100.ShapeCasts S1x32x128x100
  dot_S128x768_S768x384_S128x384_1_0_0_1_n_n_wf : DotDims.WF S128x768 S768x384 S128x384 [1] [0] [0] [1] [] []
  dot_S4096x384_S384x100_S4096x100_1_0_0_1_n_n_wf : DotDims.WF S4096x384 S384x100 S4096x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x768.size a ≤ S8x128x768.size a
  hwx0_0 : ∀ i : grid0.Coords, EltTy.bits .f32 = 32 ∨ (Rect.block (s := S8x128x768) S1x128x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x384.size a ≤ S768x384.size a
  hwx0_1 : ∀ i : grid0.Coords, EltTy.bits .f32 = 32 ∨ (Rect.block (s := S768x384) S768x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x384.size a ≤ S768x384.size a
  hwx0_2 : ∀ i : grid0.Coords, EltTy.bits .f32 = 32 ∨ (Rect.block (s := S768x384) S768x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x384.size a ≤ S8x128x384.size a
  hwx0_3 : ∀ i : grid0.Coords, EltTy.bits .f32 = 32 ∨ (Rect.block (s := S8x128x384) S1x128x384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x384.size a ≤ S8x128x384.size a
  hwx0_4 : ∀ i : grid0.Coords, EltTy.bits .f32 = 32 ∨ (Rect.block (s := S8x128x384) S1x128x384.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x384.size a ≤ S8x128x384.size a
  hwx1_0 : ∀ i : grid1.Coords, EltTy.bits .f32 = 32 ∨ (Rect.block (s := S8x128x384) S1x128x384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x32x384.size a ≤ S8x128x384.size a
  hwx1_1 : ∀ i : grid1.Coords, EltTy.bits .f32 = 32 ∨ (Rect.block (s := S8x128x384) S1x32x384.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S384x100.size a ≤ S384x100.size a
  hwx1_2 : ∀ i : grid1.Coords, EltTy.bits .f32 = 32 ∨ (Rect.block (s := S384x100) S384x100.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S384.size a ≤ S384.size a
  hwx1_3 : ∀ i : grid1.Coords, EltTy.bits .f32 = 32 ∨ (Rect.block (s := S384) S384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S100.size a ≤ S100.size a
  hwx1_4 : ∀ i : grid1.Coords, EltTy.bits .f32 = 32 ∨ (Rect.block (s := S100) S100.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x32x128x100.size a ≤ S8x128x128x100.size a
  hwx1_5 : ∀ i : grid1.Coords, EltTy.bits .f32 = 32 ∨ (Rect.block (s := S8x128x128x100) S1x32x128x100.size (cc1_transform_5 i) (hinb1_5 i)).WholeWords (EltTy.packing .f32)

variable [Facts₀]

def dot_S128x768_S768x384_S128x384_1_0_0_1_n_n : DotDims S128x768 S768x384 S128x384 where
  lhsContracting := [1]
  rhsContracting := [0]
  lhsNonContracting := [0]
  rhsNonContracting := [1]
  lhsBatch := []
  rhsBatch := []
  wf := dot_S128x768_S768x384_S128x384_1_0_0_1_n_n_wf
def dot_S4096x384_S384x100_S4096x100_1_0_0_1_n_n : DotDims S4096x384 S384x100 S4096x100 where
  lhsContracting := [1]
  rhsContracting := [0]
  lhsNonContracting := [0]
  rhsNonContracting := [1]
  lhsBatch := []
  rhsBatch := []
  wf := dot_S4096x384_S384x100_S4096x100_1_0_0_1_n_n_wf

abbrev win0_0 : Pipeline.Window sig grid0 :=
  Pipeline.Window.ofSpec (Memref.whole main_arg0) S1x128x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S768x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S768x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x128x384.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x128x384.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2_0) S1x128x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S1x32x384.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S384x100.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S100.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x32x128x100.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x128x768 : Shape := ⟨3, ![8, 128, 768]⟩
abbrev S1536x384 : Shape := ⟨2, ![1536, 384]⟩
abbrev S384 : Shape := ⟨1, ![384]⟩
abbrev S384x100 : Shape := ⟨2, ![384, 100]⟩
abbrev S100 : Shape := ⟨1, ![100]⟩
abbrev S768x384 : Shape := ⟨2, ![768, 384]⟩
abbrev S8x128x384 : Shape := ⟨3, ![8, 128, 384]⟩
abbrev S8x1x128x384 : Shape := ⟨4, ![8, 1, 128, 384]⟩
abbrev S8x128x1x384 : Shape := ⟨4, ![8, 128, 1, 384]⟩
abbrev S8x128x128x384 : Shape := ⟨4, ![8, 128, 128, 384]⟩
abbrev S1x1x1x384 : Shape := ⟨4, ![1, 1, 1, 384]⟩
abbrev S_ : Shape := ⟨0, ![]⟩
abbrev S8x128x128x100 : Shape := ⟨4, ![8, 128, 128, 100]⟩
abbrev S1x1x1x100 : Shape := ⟨4, ![1, 1, 1, 100]⟩

abbrev nBuf : Space → Nat
  | .hbm => 24
  | .vmem => 0
  | .smem => 0
  | _ => 0

abbrev bufTy : (tb : Table) → Fin (tcTables nBuf tb) → BufTy
  | .hbm, ⟨0, _⟩ => ⟨S8x128x768, .f32⟩
  | .hbm, ⟨1, _⟩ => ⟨S1536x384, .f32⟩
  | .hbm, ⟨2, _⟩ => ⟨S384, .f32⟩
  | .hbm, ⟨3, _⟩ => ⟨S384x100, .f32⟩
  | .hbm, ⟨4, _⟩ => ⟨S100, .f32⟩
  | .hbm, ⟨5, _⟩ => ⟨S768x384, .f32⟩
  | .hbm, ⟨6, _⟩ => ⟨S768x384, .f32⟩
  | .hbm, ⟨7, _⟩ => ⟨S8x128x384, .f32⟩
  | .hbm, ⟨8, _⟩ => ⟨S8x128x384, .f32⟩
  | .hbm, ⟨9, _⟩ => ⟨S8x1x128x384, .f32⟩
  | .hbm, ⟨10, _⟩ => ⟨S8x128x1x384, .f32⟩
  | .hbm, ⟨11, _⟩ => ⟨S8x128x128x384, .f32⟩
  | .hbm, ⟨12, _⟩ => ⟨S8x128x128x384, .f32⟩
  | .hbm, ⟨13, _⟩ => ⟨S8x128x128x384, .f32⟩
  | .hbm, ⟨14, _⟩ => ⟨S1x1x1x384, .f32⟩
  | .hbm, ⟨15, _⟩ => ⟨S8x128x128x384, .f32⟩
  | .hbm, ⟨16, _⟩ => ⟨S8x128x128x384, .f32⟩
  | .hbm, ⟨17, _⟩ => ⟨S_, .f32⟩
  | .hbm, ⟨18, _⟩ => ⟨S8x128x128x384, .f32⟩
  | .hbm, ⟨19, _⟩ => ⟨S8x128x128x384, .f32⟩
  | .hbm, ⟨20, _⟩ => ⟨S8x128x128x100, .f32⟩
  | .hbm, ⟨21, _⟩ => ⟨S1x1x1x100, .f32⟩
  | .hbm, ⟨22, _⟩ => ⟨S8x128x128x100, .f32⟩
  | .hbm, ⟨23, _⟩ => ⟨S8x128x128x100, .f32⟩
  | _, _ => ⟨S8x128x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  slices_S1536x384_S768x384_0_0 : S1536x384.Slices ![0, 0] S768x384
  slices_S1536x384_S768x384_768_0 : S1536x384.Slices ![768, 0] S768x384
  bcast_S8x128x384_S8x1x128x384_0_2_3 : S8x128x384.BroadcastsInDim S8x1x128x384 (![0, 2, 3] : Fin 3 → Fin S8x1x128x384.rank)
  bcast_S8x128x384_S8x128x1x384_0_1_3 : S8x128x384.BroadcastsInDim S8x128x1x384 (![0, 1, 3] : Fin 3 → Fin S8x128x1x384.rank)
  bcast_S8x1x128x384_S8x128x128x384_0_1_2_3 : S8x1x128x384.BroadcastsInDim S8x128x128x384 (![0, 1, 2, 3] : Fin 4 → Fin S8x128x128x384.rank)
  bcast_S8x128x1x384_S8x128x128x384_0_1_2_3 : S8x128x1x384.BroadcastsInDim S8x128x128x384 (![0, 1, 2, 3] : Fin 4 → Fin S8x128x128x384.rank)
  bcast_S384_S1x1x1x384_3 : S384.BroadcastsInDim S1x1x1x384 (![3] : Fin 1 → Fin S1x1x1x384.rank)
  bcast_S1x1x1x384_S8x128x128x384_0_1_2_3 : S1x1x1x384.BroadcastsInDim S8x128x128x384 (![0, 1, 2, 3] : Fin 4 → Fin S8x128x128x384.rank)
  bcast_S_S8x128x128x384 : S_.BroadcastsInDim S8x128x128x384 (![] : Fin 0 → Fin S8x128x128x384.rank)
  bcast_S100_S1x1x1x100_3 : S100.BroadcastsInDim S1x1x1x100 (![3] : Fin 1 → Fin S1x1x1x100.rank)
  bcast_S1x1x1x100_S8x128x128x100_0_1_2_3 : S1x1x1x100.BroadcastsInDim S8x128x128x100 (![0, 1, 2, 3] : Fin 4 → Fin S8x128x128x100.rank)
  dot_S8x128x768_S768x384_S8x128x384_2_0_01_1_n_n_wf : DotDims.WF S8x128x768 S768x384 S8x128x384 [2] [0] [0, 1] [1] [] []
  dot_S8x128x128x384_S384x100_S8x128x128x100_3_0_012_1_n_n_wf : DotDims.WF S8x128x128x384 S384x100 S8x128x128x100 [3] [0] [0, 1, 2] [1] [] []

variable [Facts₀]

def dot_S8x128x768_S768x384_S8x128x384_2_0_01_1_n_n : DotDims S8x128x768 S768x384 S8x128x384 where
  lhsContracting := [2]
  rhsContracting := [0]
  lhsNonContracting := [0, 1]
  rhsNonContracting := [1]
  lhsBatch := []
  rhsBatch := []
  wf := dot_S8x128x768_S768x384_S8x128x384_2_0_01_1_n_n_wf
def dot_S8x128x128x384_S384x100_S8x128x128x100_3_0_012_1_n_n : DotDims S8x128x128x384 S384x100 S8x128x128x100 where
  lhsContracting := [3]
  rhsContracting := [0]
  lhsNonContracting := [0, 1, 2]
  rhsNonContracting := [1]
  lhsBatch := []
  rhsBatch := []
  wf := dot_S8x128x128x384_S384x100_S8x128x128x100_3_0_012_1_n_n_wf

class Facts : Prop extends Facts₀ where

variable [Facts]
-- ==== Proof.Pay0.lean ====
/-
  What the first kernel's body stores, read at one entry, on the extended reals.

  The body drops the block's leading unit axis, multiplies the 128 × 768 block of hidden vectors by a 768 × 384 weight
  piece into a zero accumulator, and puts the unit axis back. A change of float format is the identity here, and a
  matrix product into zero is the plain sum over the contracted coordinate. So the stored entry (·, n, d) is the sum
  over the 768 hidden coordinates k of x[·, n, k] · w[k, d].
-/
import proofs.«151811_j60971355734708_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Pay0

open Cert.KernelIdeal Cert.KernelIdeal.Gen Idealize.ShloMosaic Idealize.ShloMosaic.ValueIdx

/-! ## The operand indices of the 128 × 768 by 768 × 384 product -/

theorem lhs_pq_0 (i : S128x384.Idx) (q : dot_S128x768_S768x384_S128x384_1_0_0_1_n_n.contr.Idx) :
    (dot_S128x768_S768x384_S128x384_1_0_0_1_n_n.lhsIdx i q 0).val = (i 0).val := by
  unfold DotDims.lhsIdx
  rw [dif_neg (show ¬(0 : Fin S128x768.rank) ∈ dot_S128x768_S768x384_S128x384_1_0_0_1_n_n.lhsBatch by decide), dif_pos (show (0 : Fin S128x768.rank) ∈ dot_S128x768_S768x384_S128x384_1_0_0_1_n_n.lhsNonContracting by decide)]
  rfl
theorem lhs_pq_1 (i : S128x384.Idx) (q : dot_S128x768_S768x384_S128x384_1_0_0_1_n_n.contr.Idx) :
    (dot_S128x768_S768x384_S128x384_1_0_0_1_n_n.lhsIdx i q 1).val = (q ⟨0, by decide⟩).val :=
  dot_S128x768_S768x384_S128x384_1_0_0_1_n_n.lhsIdx_val_of_single rfl i q
theorem rhs_pq_0 (i : S128x384.Idx) (q : dot_S128x768_S768x384_S128x384_1_0_0_1_n_n.contr.Idx) :
    (dot_S128x768_S768x384_S128x384_1_0_0_1_n_n.rhsIdx i q 0).val = (q ⟨0, by decide⟩).val :=
  dot_S128x768_S768x384_S128x384_1_0_0_1_n_n.rhsIdx_val_of_single rfl i q
theorem rhs_pq_1 (i : S128x384.Idx) (q : dot_S128x768_S768x384_S128x384_1_0_0_1_n_n.contr.Idx) :
    (dot_S128x768_S768x384_S128x384_1_0_0_1_n_n.rhsIdx i q 1).val = (i 1).val := by
  unfold DotDims.rhsIdx
  rw [dif_neg (show ¬(1 : Fin S768x384.rank) ∈ dot_S128x768_S768x384_S128x384_1_0_0_1_n_n.rhsBatch by decide), dif_pos (show (1 : Fin S768x384.rank) ∈ dot_S128x768_S768x384_S128x384_1_0_0_1_n_n.rhsNonContracting by decide)]
  rfl

/-- The product into a zero accumulator, read at (n, d): the sum over k of l[n, k] · r[k, d]. -/
theorem matmul_pq_apply (l : FVec Ideal S128x768 .bf16) (r : FVec Ideal S768x384 .bf16) (n : Fin 128) (d : Fin 384) :
    matmul dot_S128x768_S768x384_S128x384_1_0_0_1_n_n none l r (constant S128x384 .f32 0x00000000#32) (ix2 n d)
      = ∑ k : Fin 768, l (ix2 n k) * r (ix2 k d) := by
  refine (Ideal.matmul_constant_zero_apply dot_S128x768_S768x384_S128x384_1_0_0_1_n_n none l r (ix2 n d)).trans ?_
  rw [← Equiv.sum_comp (contrEquiv1 dot_S128x768_S768x384_S128x384_1_0_0_1_n_n 768 rfl rfl).symm]
  refine Finset.sum_congr rfl fun k _ => ?_
  have hk := contrEquiv1_symm_val dot_S128x768_S768x384_S128x384_1_0_0_1_n_n 768 rfl rfl k
  have el : dot_S128x768_S768x384_S128x384_1_0_0_1_n_n.lhsIdx (ix2 n d) ((contrEquiv1 dot_S128x768_S768x384_S128x384_1_0_0_1_n_n 768 rfl rfl).symm k) = ix2 n k := funext fun a => Fin.ext (by
    match a with
    | ⟨0, _⟩ => exact lhs_pq_0 _ _
    | ⟨1, _⟩ => exact (lhs_pq_1 _ _).trans hk)
  have er : dot_S128x768_S768x384_S128x384_1_0_0_1_n_n.rhsIdx (ix2 n d) ((contrEquiv1 dot_S128x768_S768x384_S128x384_1_0_0_1_n_n 768 rfl rfl).symm k) = ix2 k d := funext fun a => Fin.ext (by
    match a with
    | ⟨0, _⟩ => exact (rhs_pq_0 _ _).trans hk
    | ⟨1, _⟩ => exact rhs_pq_1 _ _)
  rw [el, er]

/-! ## The unit-axis casts -/

/-- A 1 × 128 × 768 block seen as 128 × 768: entry (n, k) is entry (0, n, k). -/
theorem drop_unit_768 (x : FVec Ideal S1x128x768 .f32) (h : S1x128x768.ShapeCasts S128x768) (n : Fin 128) (k : Fin 768) :
    shapeCast S128x768 x h (ix2 n k) = x (ix3 (0 : Fin 1) n k) :=
  shapeCast_apply x h (ix2 n k) (ix3 (0 : Fin 1) n k) (by
    rw [Shape.rowMajor_val_three, Shape.rowMajor_val_two]
    show ((0 : Fin 1).val * 128 + n.val) * 768 + k.val = n.val * 768 + k.val
    simp)

/-- A 128 × 384 result stored as a 1 × 128 × 384 block: entry (a, n, d) is entry (n, d). -/
theorem add_unit_384 (v : FVec Ideal S128x384 .f32) (h : S128x384.ShapeCasts S1x128x384) (a : Fin 1) (n : Fin 128) (d : Fin 384) :
    shapeCast S1x128x384 v h (ix3 a n d) = v (ix2 n d) :=
  shapeCast_apply v h (ix3 a n d) (ix2 n d) (by
    rw [Shape.rowMajor_val_three, Shape.rowMajor_val_two]
    show n.val * 384 + d.val = (a.val * 128 + n.val) * 384 + d.val
    have := a.isLt; omega)

/-! ## The two stored values -/

/-- The first store's value at (a, n, d): the sum over k of x[0, n, k] · w[k, d]. -/
theorem pay2_apply (x : Vec Ideal S1x128x768 .f32) (w : Vec Ideal S768x384 .f32) (a : Fin 1) (n : Fin 128) (d : Fin 384) :
    k0_pay2 x w (ix3 a n d) = ∑ k : Fin 768, x (ix3 (0 : Fin 1) n k) * w (ix2 k d) := by
  unfold k0_pay2 k0_pay1
  refine (add_unit_384 _ _ a n d).trans ?_
  refine (matmul_pq_apply _ _ n d).trans ?_
  refine Finset.sum_congr rfl fun k _ => ?_
  show shapeCast S128x768 x _ (ix2 n k) * shapeCast S768x384 w _ (ix2 k d) = _
  rw [drop_unit_768, shapeCast_self]

/-- The second store's value at (a, n, d): the same sum against the other weight piece. -/
theorem pay3_apply (x : Vec Ideal S1x128x768 .f32) (w : Vec Ideal S768x384 .f32) (a : Fin 1) (n : Fin 128) (d : Fin 384) :
    k0_pay3 x w (ix3 a n d) = ∑ k : Fin 768, x (ix3 (0 : Fin 1) n k) * w (ix2 k d) := by
  unfold k0_pay3 k0_pay1
  refine (add_unit_384 _ _ a n d).trans ?_
  refine (matmul_pq_apply _ _ n d).trans ?_
  refine Finset.sum_congr rfl fun k _ => ?_
  show shapeCast S128x768 x _ (ix2 n k) * shapeCast S768x384 w _ (ix2 k d) = _
  rw [drop_unit_768, shapeCast_self]

end Cert.KernelIdeal.Pay0

end
-- ==== Proof.Spec.lean ====
/-
  The two functions both programs compute, stated once over the literal shapes, index by index, on the extended reals.

  `proj x w` is the projection of every word's hidden vector: entry (b, n, d) is the sum over the 768 hidden
  coordinates k of x[b, n, k] · w[k, d].

  `table p q w2 b1 b2` is the pair table: entry (b, i, j, l) is the sum over the 384 hidden units d of
  max(q[b, i, d] + p[b, j, d] + b1[d], 0) · w2[d, l], plus b2[l]: the rectified sum of a row contribution (word j),
  a column contribution (word i) and a bias, sent through the second layer.
-/
import Idealize.ShloMosaic.PureOps.Ideal
import Idealize.ShloMosaic.Lib.ValueIdx

noncomputable section

open scoped BigOperators

namespace Cert.Spec

open Idealize.ShloMosaic Idealize.ShloMosaic.ValueIdx

/-- x[b, n, ·] against w[·, d], summed over the 768 hidden coordinates. -/
def proj (x : (⟨3, ![8, 128, 768]⟩ : Shape).Idx → EReal) (w : (⟨2, ![768, 384]⟩ : Shape).Idx → EReal) :
    (⟨3, ![8, 128, 384]⟩ : Shape).Idx → EReal :=
  fun i => ∑ k : Fin 768, x (ix3 (i 0) (i 1) k) * w (ix2 k (i 2))

/-- The hidden unit d of the pair (i, j) of batch b before the second layer: the column word i's contribution, the row
    word j's, and the bias, rectified. -/
def hidden (p q : (⟨3, ![8, 128, 384]⟩ : Shape).Idx → EReal) (b1 : (⟨1, ![384]⟩ : Shape).Idx → EReal)
    (b : Fin 8) (i j : Fin 128) (d : Fin 384) : EReal :=
  max (q (ix3 b i d) + p (ix3 b j d) + b1 (ix1 d)) 0

/-- The pair table: the rectified hidden units through the second layer, plus its bias. -/
def table (p q : (⟨3, ![8, 128, 384]⟩ : Shape).Idx → EReal) (w2 : (⟨2, ![384, 100]⟩ : Shape).Idx → EReal)
    (b1 : (⟨1, ![384]⟩ : Shape).Idx → EReal) (b2 : (⟨1, ![100]⟩ : Shape).Idx → EReal) :
    (⟨4, ![8, 128, 128, 100]⟩ : Shape).Idx → EReal :=
  fun i => (∑ d : Fin 384, hidden p q b1 (i 0) (i 1) (i 2) d * w2 (ix2 d (i 3))) + b2 (ix1 (i 3))

end Cert.Spec

end
-- ==== Proof.Region0.lean ====
/-
  The first region's two result arrays, whole, on the extended reals, for any contents `V` the region is entered from.

  The grid has one point per batch b. Point b reads the hidden vectors of batch b (a 1 × 128 × 768 block) and both
  768 × 384 weight pieces whole, and writes back the 1 × 128 × 384 blocks of batch b of the two results. Each stored
  entry is the sum over the hidden coordinates of x[b, n, k] · w[k, d], which is the projection's entry (b, n, d); the
  eight blocks tile each result array, so each array ends as the projection, whole.
-/
import proofs.«151811_j60971355734708_1_alg».proof.Proof.Gen.KernelIdeal.Frame
import proofs.«151811_j60971355734708_1_alg».proof.Proof.Pay0
import proofs.«151811_j60971355734708_1_alg».proof.Proof.Spec

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The batch a grid point works on: the point's own number. -/
abbrev batchOf (t : Fin cfg0.N) : Fin 8 := ⟨t.val, lt_of_lt_of_eq t.isLt N_0⟩
/-- The grid point that works on a batch. -/
abbrev pointOf (b : Fin 8) : Fin cfg0.N := ⟨b.val, lt_of_lt_of_eq b.isLt N_0.symm⟩

/-- The hidden vectors and the two weight pieces as the region finds them, at their literal shapes. -/
abbrev hid (c : Dev nD) : Vec Ideal S8x128x768 .f32 := V c main_arg0
abbrev wRow (c : Dev nD) : Vec Ideal S768x384 .f32 := V c main_v0
abbrev wCol (c : Dev nD) : Vec Ideal S768x384 .f32 := V c main_v1

/-- The index maps over the grid: the hidden vectors' window and both result windows move with the batch, the weight
    pieces' windows stay at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- WHAT POINT t WRITES BACK through output window 3: block t of the projection of the hidden vectors by the weight
    piece `main_v0`. The point's input blocks are the hidden vectors of batch t and the whole weight piece, and the
    output block is the rows of batch t: the stored sums are the projection's entries under the block. -/
theorem flushed3_eq (c : Dev nD) (t : Fin cfg0.N) :
    (dat0 V c).flushed 3 t = ((cfg0.win 3).blk t).view.read (Elt Ideal) (Spec.proj (hid V c) (wRow V c)) := by
  show (cfg0.win 3).cut (grid0.coords t) ((dat0 V c).after 3 t) = _
  rw [after0_3]
  unfold out0_3
  rw [View.canon_unit_zero hz3]
  simp only [View.ld_unit_zero (S := S1x128x768) hz3, View.ld_unit_zero (S := S768x384) hz2]
  funext j
  obtain ⟨a, n, d, rfl⟩ : ∃ (a : Fin 1) (n : Fin 128) (d : Fin 384), j = ix3 a n d := ⟨j 0, j 1, j 2, eq_ix3 j⟩
  refine (Pay0.pay2_apply _ _ a n d).trans ?_
  obtain ⟨e0, e1, e2, e3, e4, e5, e6, e7, e8, e9, e10, e11, e12⟩ := idx_facts t
  have hout : ((cfg0.win 3).blk t).view.emb (ix3 a n d) = ix3 (batchOf t) n d := by
    funext x; apply Fin.ext
    match x with
    | ⟨0, _⟩ => show win0_3.index t (0 : Fin 3) * 1 + 1 * a.val = t.val; have := a.isLt; omega
    | ⟨1, _⟩ => show win0_3.index t (1 : Fin 3) * 128 + 1 * n.val = n.val; omega
    | ⟨2, _⟩ => show win0_3.index t (2 : Fin 3) * 384 + 1 * d.val = d.val; omega
  show _ = Spec.proj (hid V c) (wRow V c) (((cfg0.win 3).blk t).view.emb (ix3 a n d))
  rw [hout]
  show _ = ∑ k : Fin 768, hid V c (ix3 (batchOf t) n k) * wRow V c (ix2 k d)
  refine Finset.sum_congr rfl fun k _ => ?_
  have hx : ((cfg0.win 0).blk t).view.emb (ix3 (0 : Fin 1) n k) = ix3 (batchOf t) n k := by
    funext x; apply Fin.ext
    match x with
    | ⟨0, _⟩ => show win0_0.index t (0 : Fin 3) * 1 + 1 * (0 : Fin 1).val = t.val; simp only [Fin.val_zero]; omega
    | ⟨1, _⟩ => show win0_0.index t (1 : Fin 3) * 128 + 1 * n.val = n.val; omega
    | ⟨2, _⟩ => show win0_0.index t (2 : Fin 3) * 768 + 1 * k.val = k.val; omega
  have hw : ((cfg0.win 1).blk t).view.emb (ix2 k d) = ix2 k d := by
    funext x; apply Fin.ext
    match x with
    | ⟨0, _⟩ => show win0_1.index t (0 : Fin 2) * 768 + 1 * k.val = k.val; omega
    | ⟨1, _⟩ => show win0_1.index t (1 : Fin 2) * 384 + 1 * d.val = d.val; omega
  show hid V c (((cfg0.win 0).blk t).view.emb (ix3 (0 : Fin 1) n k)) * wRow V c (((cfg0.win 1).blk t).view.emb (ix2 k d)) = _
  rw [hx, hw]

/-- An entry of the array is in point t's block of window 3 iff each coordinate is in the block's range. -/
theorem mem_blk3 (t : Fin cfg0.N) (i : S8x128x384.Idx) :
    i ∈ ((cfg0.win 3).blk t).view.set ↔ ∀ a : Fin 3, win0_3.index t a * S1x128x384.size a ≤ (i a).val ∧ (i a).val < win0_3.index t a * S1x128x384.size a + S1x128x384.size a := by
  show i ∈ ((View.whole main_v2_0).slice (win0_3.rect t)).set ↔ _
  rw [View.set_slice_whole, Rect.mem_set_unit]
  exact Iff.rfl

/-- Every entry (b, n, d) of the array lies in the block point b writes back: the blocks tile the array by batch. -/
theorem cover3 (i : S8x128x384.Idx) : ∃ t : Fin cfg0.N, (cfg0.win 3).flush t = true ∧ i ∈ ((cfg0.win 3).blk t).view.set := by
  have h0 : (i 0).val < 8 := (i 0).isLt
  have h1 : (i 1).val < 128 := (i 1).isLt
  have h2 : (i 2).val < 384 := (i 2).isLt
  refine ⟨pointOf ⟨(i 0).val, h0⟩, flush0_3 _, ?_⟩
  rw [mem_blk3]
  obtain ⟨e0, e1, e2, e3, e4, e5, e6, e7, e8, e9, e10, e11, e12⟩ := idx_facts (pointOf ⟨(i 0).val, h0⟩)
  have hv : (pointOf ⟨(i 0).val, h0⟩).val = (i 0).val := rfl
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 128 ≤ (i 1).val ∧ (i 1).val < win0_3.index _ (1 : Fin 3) * 128 + 128; omega
  | ⟨2, _⟩ => show win0_3.index _ (2 : Fin 3) * 384 ≤ (i 2).val ∧ (i 2).val < win0_3.index _ (2 : Fin 3) * 384 + 384; omega

/-- THE ARRAY window 3 leaves after the region: the projection by `main_v0`, whole. -/
theorem final3 (c : Dev nD) : (dat0 V c).arrAt 3 cfg0.N = Spec.proj (hid V c) (wRow V c) :=
  (dat0 V c).arrAt_eq_of_cover 3 _ (fun t _ => flushed3_eq V c t) cover3

/-- WHAT POINT t WRITES BACK through output window 4: block t of the projection of the hidden vectors by the weight
    piece `main_v1`. The point's input blocks are the hidden vectors of batch t and the whole weight piece, and the
    output block is the rows of batch t: the stored sums are the projection's entries under the block. -/
theorem flushed4_eq (c : Dev nD) (t : Fin cfg0.N) :
    (dat0 V c).flushed 4 t = ((cfg0.win 4).blk t).view.read (Elt Ideal) (Spec.proj (hid V c) (wCol V c)) := by
  show (cfg0.win 4).cut (grid0.coords t) ((dat0 V c).after 4 t) = _
  rw [after0_4]
  unfold out0_4
  rw [View.canon_unit_zero hz3]
  simp only [View.ld_unit_zero (S := S1x128x768) hz3, View.ld_unit_zero (S := S768x384) hz2]
  funext j
  obtain ⟨a, n, d, rfl⟩ : ∃ (a : Fin 1) (n : Fin 128) (d : Fin 384), j = ix3 a n d := ⟨j 0, j 1, j 2, eq_ix3 j⟩
  refine (Pay0.pay3_apply _ _ a n d).trans ?_
  obtain ⟨e0, e1, e2, e3, e4, e5, e6, e7, e8, e9, e10, e11, e12⟩ := idx_facts t
  have hout : ((cfg0.win 4).blk t).view.emb (ix3 a n d) = ix3 (batchOf t) n d := by
    funext x; apply Fin.ext
    match x with
    | ⟨0, _⟩ => show win0_4.index t (0 : Fin 3) * 1 + 1 * a.val = t.val; have := a.isLt; omega
    | ⟨1, _⟩ => show win0_4.index t (1 : Fin 3) * 128 + 1 * n.val = n.val; omega
    | ⟨2, _⟩ => show win0_4.index t (2 : Fin 3) * 384 + 1 * d.val = d.val; omega
  show _ = Spec.proj (hid V c) (wCol V c) (((cfg0.win 4).blk t).view.emb (ix3 a n d))
  rw [hout]
  show _ = ∑ k : Fin 768, hid V c (ix3 (batchOf t) n k) * wCol V c (ix2 k d)
  refine Finset.sum_congr rfl fun k _ => ?_
  have hx : ((cfg0.win 0).blk t).view.emb (ix3 (0 : Fin 1) n k) = ix3 (batchOf t) n k := by
    funext x; apply Fin.ext
    match x with
    | ⟨0, _⟩ => show win0_0.index t (0 : Fin 3) * 1 + 1 * (0 : Fin 1).val = t.val; simp only [Fin.val_zero]; omega
    | ⟨1, _⟩ => show win0_0.index t (1 : Fin 3) * 128 + 1 * n.val = n.val; omega
    | ⟨2, _⟩ => show win0_0.index t (2 : Fin 3) * 768 + 1 * k.val = k.val; omega
  have hw : ((cfg0.win 2).blk t).view.emb (ix2 k d) = ix2 k d := by
    funext x; apply Fin.ext
    match x with
    | ⟨0, _⟩ => show win0_2.index t (0 : Fin 2) * 768 + 1 * k.val = k.val; omega
    | ⟨1, _⟩ => show win0_2.index t (1 : Fin 2) * 384 + 1 * d.val = d.val; omega
  show hid V c (((cfg0.win 0).blk t).view.emb (ix3 (0 : Fin 1) n k)) * wCol V c (((cfg0.win 2).blk t).view.emb (ix2 k d)) = _
  rw [hx, hw]

/-- An entry of the array is in point t's block of window 4 iff each coordinate is in the block's range. -/
theorem mem_blk4 (t : Fin cfg0.N) (i : S8x128x384.Idx) :
    i ∈ ((cfg0.win 4).blk t).view.set ↔ ∀ a : Fin 3, win0_4.index t a * S1x128x384.size a ≤ (i a).val ∧ (i a).val < win0_4.index t a * S1x128x384.size a + S1x128x384.size a := by
  show i ∈ ((View.whole main_v2_1).slice (win0_4.rect t)).set ↔ _
  rw [View.set_slice_whole, Rect.mem_set_unit]
  exact Iff.rfl

/-- Every entry (b, n, d) of the array lies in the block point b writes back: the blocks tile the array by batch. -/
theorem cover4 (i : S8x128x384.Idx) : ∃ t : Fin cfg0.N, (cfg0.win 4).flush t = true ∧ i ∈ ((cfg0.win 4).blk t).view.set := by
  have h0 : (i 0).val < 8 := (i 0).isLt
  have h1 : (i 1).val < 128 := (i 1).isLt
  have h2 : (i 2).val < 384 := (i 2).isLt
  refine ⟨pointOf ⟨(i 0).val, h0⟩, flush0_4 _, ?_⟩
  rw [mem_blk4]
  obtain ⟨e0, e1, e2, e3, e4, e5, e6, e7, e8, e9, e10, e11, e12⟩ := idx_facts (pointOf ⟨(i 0).val, h0⟩)
  have hv : (pointOf ⟨(i 0).val, h0⟩).val = (i 0).val := rfl
  intro a
  match a with
  | ⟨0, _⟩ => show win0_4.index _ (0 : Fin 3) * 1 ≤ (i 0).val ∧ (i 0).val < win0_4.index _ (0 : Fin 3) * 1 + 1; omega
  | ⟨1, _⟩ => show win0_4.index _ (1 : Fin 3) * 128 ≤ (i 1).val ∧ (i 1).val < win0_4.index _ (1 : Fin 3) * 128 + 128; omega
  | ⟨2, _⟩ => show win0_4.index _ (2 : Fin 3) * 384 ≤ (i 2).val ∧ (i 2).val < win0_4.index _ (2 : Fin 3) * 384 + 384; omega

/-- THE ARRAY window 4 leaves after the region: the projection by `main_v1`, whole. -/
theorem final4 (c : Dev nD) : (dat0 V c).arrAt 4 cfg0.N = Spec.proj (hid V c) (wCol V c) :=
  (dat0 V c).arrAt_eq_of_cover 4 _ (fun t _ => flushed4_eq V c t) cover4

end Cert.KernelIdeal.Region0

end
-- ==== Proof.Pay1.lean ====
/-
  What the second kernel's body stores, read at one entry, on the extended reals.

  For a tile of 32 column words i and all 128 row words j the body forms q[i, d] + p[j, d] + b1[d] by broadcasting,
  rectifies it against zero, lays the 32 × 128 pairs out as 4096 rows (pair (i, j) is row i · 128 + j), multiplies by the
  384 × 100 second layer into a zero accumulator, adds b2[l], and folds the rows back to pairs. Format changes are the
  identity and the product into zero is the plain sum, so the stored entry (·, i, j, l) is the sum over the 384 hidden
  units d of max(q[i, d] + p[j, d] + b1[d], 0) · w2[d, l], plus b2[l].
-/
import proofs.«151811_j60971355734708_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Pay1

open Cert.KernelIdeal Cert.KernelIdeal.Gen Idealize.ShloMosaic Idealize.ShloMosaic.ValueIdx

/-- The row of the pair (i, j) among the 32 · 128 pairs of a tile. -/
abbrev row (i : Fin 32) (j : Fin 128) : Fin 4096 := ⟨i.val * 128 + j.val, by have := i.isLt; have := j.isLt; omega⟩

/-! ## The operand indices of the 4096 × 384 by 384 × 100 product -/

theorem lhs_tab_0 (i : S4096x100.Idx) (q : dot_S4096x384_S384x100_S4096x100_1_0_0_1_n_n.contr.Idx) :
    (dot_S4096x384_S384x100_S4096x100_1_0_0_1_n_n.lhsIdx i q 0).val = (i 0).val := by
  unfold DotDims.lhsIdx
  rw [dif_neg (show ¬(0 : Fin S4096x384.rank) ∈ dot_S4096x384_S384x100_S4096x100_1_0_0_1_n_n.lhsBatch by decide), dif_pos (show (0 : Fin S4096x384.rank) ∈ dot_S4096x384_S384x100_S4096x100_1_0_0_1_n_n.lhsNonContracting by decide)]
  rfl
theorem lhs_tab_1 (i : S4096x100.Idx) (q : dot_S4096x384_S384x100_S4096x100_1_0_0_1_n_n.contr.Idx) :
    (dot_S4096x384_S384x100_S4096x100_1_0_0_1_n_n.lhsIdx i q 1).val = (q ⟨0, by decide⟩).val :=
  dot_S4096x384_S384x100_S4096x100_1_0_0_1_n_n.lhsIdx_val_of_single rfl i q
theorem rhs_tab_0 (i : S4096x100.Idx) (q : dot_S4096x384_S384x100_S4096x100_1_0_0_1_n_n.contr.Idx) :
    (dot_S4096x384_S384x100_S4096x100_1_0_0_1_n_n.rhsIdx i q 0).val = (q ⟨0, by decide⟩).val :=
  dot_S4096x384_S384x100_S4096x100_1_0_0_1_n_n.rhsIdx_val_of_single rfl i q
theorem rhs_tab_1 (i : S4096x100.Idx) (q : dot_S4096x384_S384x100_S4096x100_1_0_0_1_n_n.contr.Idx) :
    (dot_S4096x384_S384x100_S4096x100_1_0_0_1_n_n.rhsIdx i q 1).val = (i 1).val := by
  unfold DotDims.rhsIdx
  rw [dif_neg (show ¬(1 : Fin S384x100.rank) ∈ dot_S4096x384_S384x100_S4096x100_1_0_0_1_n_n.rhsBatch by decide), dif_pos (show (1 : Fin S384x100.rank) ∈ dot_S4096x384_S384x100_S4096x100_1_0_0_1_n_n.rhsNonContracting by decide)]
  rfl

/-- The product into a zero accumulator, read at (s, l): the sum over d of h[s, d] · w[d, l]. -/
theorem matmul_tab_apply (h : FVec Ideal S4096x384 .bf16) (w : FVec Ideal S384x100 .bf16) (s : Fin 4096) (l : Fin 100) :
    matmul dot_S4096x384_S384x100_S4096x100_1_0_0_1_n_n none h w (constant S4096x100 .f32 0x00000000#32) (ix2 s l)
      = ∑ d : Fin 384, h (ix2 s d) * w (ix2 d l) := by
  refine (Ideal.matmul_constant_zero_apply dot_S4096x384_S384x100_S4096x100_1_0_0_1_n_n none h w (ix2 s l)).trans ?_
  rw [← Equiv.sum_comp (contrEquiv1 dot_S4096x384_S384x100_S4096x100_1_0_0_1_n_n 384 rfl rfl).symm]
  refine Finset.sum_congr rfl fun k _ => ?_
  have hk := contrEquiv1_symm_val dot_S4096x384_S384x100_S4096x100_1_0_0_1_n_n 384 rfl rfl k
  have el : dot_S4096x384_S384x100_S4096x100_1_0_0_1_n_n.lhsIdx (ix2 s l) ((contrEquiv1 dot_S4096x384_S384x100_S4096x100_1_0_0_1_n_n 384 rfl rfl).symm k) = ix2 s k := funext fun a => Fin.ext (by
    match a with
    | ⟨0, _⟩ => exact lhs_tab_0 _ _
    | ⟨1, _⟩ => exact (lhs_tab_1 _ _).trans hk)
  have er : dot_S4096x384_S384x100_S4096x100_1_0_0_1_n_n.rhsIdx (ix2 s l) ((contrEquiv1 dot_S4096x384_S384x100_S4096x100_1_0_0_1_n_n 384 rfl rfl).symm k) = ix2 k l := funext fun a => Fin.ext (by
    match a with
    | ⟨0, _⟩ => exact (rhs_tab_0 _ _).trans hk
    | ⟨1, _⟩ => exact rhs_tab_1 _ _)
  rw [el, er]

/-! ## The layout steps, each read at one entry -/

/-- The stored 1 × 32 × 128 × 100 block is the 32 × 128 × 100 result with a unit axis in front. -/
theorem out_add_unit (v : FVec Ideal S32x128x100 .f32) (h : S32x128x100.ShapeCasts S1x32x128x100)
    (a : Fin 1) (i : Fin 32) (j : Fin 128) (l : Fin 100) :
    shapeCast S1x32x128x100 v h (ix4 a i j l) = v (ix3 i j l) :=
  shapeCast_apply v h (ix4 a i j l) (ix3 i j l) (by
    rw [Shape.rowMajor_val_three, Shape.rowMajor_val_four]
    show (i.val * 128 + j.val) * 100 + l.val = ((a.val * 32 + i.val) * 128 + j.val) * 100 + l.val
    have := a.isLt; omega)

/-- The 4096 rows folded back to pairs: entry (i, j, l) is row i · 128 + j, column l. -/
theorem rows_to_pairs (v : FVec Ideal S4096x100 .f32) (h : S4096x100.ShapeCasts S32x128x100)
    (i : Fin 32) (j : Fin 128) (l : Fin 100) :
    shapeCast S32x128x100 v h (ix3 i j l) = v (ix2 (row i j) l) :=
  shapeCast_apply v h (ix3 i j l) (ix2 (row i j) l) (by
    rw [Shape.rowMajor_val_three, Shape.rowMajor_val_two]
    show (i.val * 128 + j.val) * 100 + l.val = (i.val * 128 + j.val) * 100 + l.val
    rfl)

/-- The pairs laid out as 4096 rows: row i · 128 + j, column d is entry (i, j, d). -/
theorem pairs_to_rows (v : FVec Ideal S32x128x384 .f32) (h : S32x128x384.ShapeCasts S4096x384)
    (i : Fin 32) (j : Fin 128) (d : Fin 384) :
    shapeCast S4096x384 v h (ix2 (row i j) d) = v (ix3 i j d) :=
  shapeCast_apply v h (ix2 (row i j) d) (ix3 i j d) (by
    rw [Shape.rowMajor_val_three, Shape.rowMajor_val_two]
    show (i.val * 128 + j.val) * 384 + d.val = (i.val * 128 + j.val) * 384 + d.val
    rfl)

/-- The output bias as a row vector broadcast down the 4096 rows: entry (s, l) is b2[l]. -/
theorem bias_out (b : FVec Ideal S100 .f32) (h1 : S100.ShapeCasts S1x100) (h2 : S1x100.Broadcasts S4096x100)
    (s : Fin 4096) (l : Fin 100) :
    broadcastTo S4096x100 (shapeCast S1x100 b h1) h2 (ix2 s l) = b (ix1 l) := by
  refine (broadcastTo_apply (shapeCast S1x100 b h1) h2 (ix2 s l) (ix2 (0 : Fin 1) l) (fun a => match a with
    | ⟨0, _⟩ => by show (0 : Nat) = if (1 : Nat) = 1 then 0 else _; rw [if_pos rfl]
    | ⟨1, _⟩ => by show l.val = if (100 : Nat) = 1 then 0 else l.val; rw [if_neg (by decide)])).trans ?_
  exact shapeCast_apply b h1 (ix2 (0 : Fin 1) l) (ix1 l) (by
    rw [Shape.rowMajor_val_one, Shape.rowMajor_val_two]
    show l.val = (0 : Fin 1).val * 100 + l.val
    simp)

/-- The hidden bias broadcast over all pairs: entry (i, j, d) is b1[d]. -/
theorem bias_hidden (b : FVec Ideal S384 .f32) (h1 : S384.ShapeCasts S1x1x384) (h2 : S1x1x384.Broadcasts S32x128x384)
    (i : Fin 32) (j : Fin 128) (d : Fin 384) :
    broadcastTo S32x128x384 (shapeCast S1x1x384 b h1) h2 (ix3 i j d) = b (ix1 d) := by
  refine (broadcastTo_apply (shapeCast S1x1x384 b h1) h2 (ix3 i j d) (ix3 (0 : Fin 1) (0 : Fin 1) d) (fun a => match a with
    | ⟨0, _⟩ => by show (0 : Nat) = if (1 : Nat) = 1 then 0 else _; rw [if_pos rfl]
    | ⟨1, _⟩ => by show (0 : Nat) = if (1 : Nat) = 1 then 0 else _; rw [if_pos rfl]
    | ⟨2, _⟩ => by show d.val = if (384 : Nat) = 1 then 0 else d.val; rw [if_neg (by decide)])).trans ?_
  exact shapeCast_apply b h1 (ix3 (0 : Fin 1) (0 : Fin 1) d) (ix1 d) (by
    rw [Shape.rowMajor_val_one, Shape.rowMajor_val_three]
    show d.val = ((0 : Fin 1).val * 1 + (0 : Fin 1).val) * 384 + d.val
    simp)

/-- The column word's contribution broadcast along the row words: entry (i, j, d) is q[0, i, d]. -/
theorem col_term (q : FVec Ideal S1x32x384 .f32) (h0 : S1x32x384.ShapeCasts S32x384) (h1 : S32x384.ShapeCasts S32x1x384)
    (h2 : S32x1x384.Broadcasts S32x128x384) (i : Fin 32) (j : Fin 128) (d : Fin 384) :
    broadcastTo S32x128x384 (shapeCast S32x1x384 (shapeCast S32x384 q h0) h1) h2 (ix3 i j d) = q (ix3 (0 : Fin 1) i d) := by
  refine (broadcastTo_apply (shapeCast S32x1x384 (shapeCast S32x384 q h0) h1) h2 (ix3 i j d) (ix3 i (0 : Fin 1) d) (fun a => match a with
    | ⟨0, _⟩ => by show i.val = if (32 : Nat) = 1 then 0 else i.val; rw [if_neg (by decide)]
    | ⟨1, _⟩ => by show (0 : Nat) = if (1 : Nat) = 1 then 0 else _; rw [if_pos rfl]
    | ⟨2, _⟩ => by show d.val = if (384 : Nat) = 1 then 0 else d.val; rw [if_neg (by decide)])).trans ?_
  refine (shapeCast_apply (shapeCast S32x384 q h0) h1 (ix3 i (0 : Fin 1) d) (ix2 i d) (by
    rw [Shape.rowMajor_val_two, Shape.rowMajor_val_three]
    show i.val * 384 + d.val = (i.val * 1 + (0 : Fin 1).val) * 384 + d.val
    simp)).trans ?_
  exact shapeCast_apply q h0 (ix2 i d) (ix3 (0 : Fin 1) i d) (by
    rw [Shape.rowMajor_val_two, Shape.rowMajor_val_three]
    show ((0 : Fin 1).val * 32 + i.val) * 384 + d.val = i.val * 384 + d.val
    simp)

/-- The row word's contribution broadcast along the column words: entry (i, j, d) is p[0, j, d]. -/
theorem row_term (p : FVec Ideal S1x128x384 .f32) (h0 : S1x128x384.ShapeCasts S128x384) (h1 : S128x384.ShapeCasts S1x128x384)
    (h2 : S1x128x384.Broadcasts S32x128x384) (i : Fin 32) (j : Fin 128) (d : Fin 384) :
    broadcastTo S32x128x384 (shapeCast S1x128x384 (shapeCast S128x384 p h0) h1) h2 (ix3 i j d) = p (ix3 (0 : Fin 1) j d) := by
  rw [shapeCast_shapeCast]
  exact broadcastTo_apply p h2 (ix3 i j d) (ix3 (0 : Fin 1) j d) (fun a => match a with
    | ⟨0, _⟩ => by show (0 : Nat) = if (1 : Nat) = 1 then 0 else _; rw [if_pos rfl]
    | ⟨1, _⟩ => by show j.val = if (128 : Nat) = 1 then 0 else j.val; rw [if_neg (by decide)]
    | ⟨2, _⟩ => by show d.val = if (384 : Nat) = 1 then 0 else d.val; rw [if_neg (by decide)])

/-! ## The stored value -/

/-- The store's value at (a, i, j, l): the rectified hidden units of the pair (i, j) through the second layer, plus
    the output bias. -/
theorem pay1_apply (p : Vec Ideal S1x128x384 .f32) (q : Vec Ideal S1x32x384 .f32) (b1 : Vec Ideal S384 .f32)
    (w2 : Vec Ideal S384x100 .f32) (b2 : Vec Ideal S100 .f32) (a : Fin 1) (i : Fin 32) (j : Fin 128) (l : Fin 100) :
    k1_pay1 p q b1 w2 b2 (ix4 a i j l)
      = (∑ d : Fin 384, max (q (ix3 (0 : Fin 1) i d) + p (ix3 (0 : Fin 1) j d) + b1 (ix1 d)) 0 * w2 (ix2 d l)) + b2 (ix1 l) := by
  unfold k1_pay1
  refine (out_add_unit _ _ a i j l).trans ?_
  refine (rows_to_pairs _ _ i j l).trans ?_
  show matmul (F := Ideal) dot_S4096x384_S384x100_S4096x100_1_0_0_1_n_n none _ _ (constant (F := Ideal) S4096x100 .f32 0x00000000#32) (ix2 (row i j) l)
      + broadcastTo S4096x100 (shapeCast S1x100 b2 _) _ (ix2 (row i j) l) = _
  rw [bias_out, matmul_tab_apply]
  congr 1
  refine Finset.sum_congr rfl fun d _ => ?_
  rw [truncf_apply, truncf_apply, pairs_to_rows, maximumf_apply, addf_apply, addf_apply, broadcast_apply,
    col_term, row_term, bias_hidden, Ideal.ofBits_def, Ideal.ofBits_zero_f32]

end Cert.KernelIdeal.Pay1

end
-- ==== Proof.Region1.lean ====
/-
  The second region's result array, whole, on the extended reals, for any contents `V` the region is entered from.

  The grid has one point per batch b and tile of 32 column words: point t works on batch t / 4 and on the column words
  (t mod 4) · 32 … (t mod 4) · 32 + 31. It reads the row contributions p of the whole batch (1 × 128 × 384), the column
  contributions q of its tile (1 × 32 × 384), the second layer and both biases whole, and writes back the
  1 × 32 × 128 × 100 block of its batch and tile. Each stored entry is the pair table's entry under the block, and the
  32 blocks tile the result array, so the array ends as the pair table, whole.
-/
import proofs.«151811_j60971355734708_1_alg».proof.Proof.Gen.KernelIdeal.Frame
import proofs.«151811_j60971355734708_1_alg».proof.Proof.Pay1
import proofs.«151811_j60971355734708_1_alg».proof.Proof.Spec

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a; rfl

/-- The batch a grid point works on. -/
abbrev batchOf (t : Fin cfg1.N) : Fin 8 := ⟨t.val / 4, by have h : t.val < 32 := lt_of_lt_of_eq t.isLt N_1; omega⟩
/-- The column word a grid point's tile holds at place i. -/
abbrev colOf (t : Fin cfg1.N) (i : Fin 32) : Fin 128 := ⟨t.val % 4 * 32 + i.val, by have := i.isLt; omega⟩
/-- The grid point of a batch and a tile. -/
abbrev pointOf (b : Fin 8) (s : Fin 4) : Fin cfg1.N := ⟨b.val * 4 + s.val, lt_of_lt_of_eq (by have := b.isLt; have := s.isLt; omega : b.val * 4 + s.val < 32) N_1.symm⟩

/-- The region's five inputs as it finds them, at their literal shapes. -/
abbrev rowC (c : Dev nD) : Vec Ideal S8x128x384 .f32 := V c main_v2_0
abbrev colC (c : Dev nD) : Vec Ideal S8x128x384 .f32 := V c main_v2_1
abbrev lay2 (c : Dev nD) : Vec Ideal S384x100 .f32 := V c main_arg3
abbrev bia1 (c : Dev nD) : Vec Ideal S384 .f32 := V c main_arg2
abbrev bia2 (c : Dev nD) : Vec Ideal S100 .f32 := V c main_arg4

/-- The index maps over the grid: the row contributions' window moves with the batch; the column contributions' and
    the result's with the batch and the tile; the second layer's and the biases' stay at block 0. -/
theorem idx_facts : ∀ t : Fin cfg1.N,
    win1_0.index t (0 : Fin 3) = t.val / 4 ∧ win1_0.index t (1 : Fin 3) = 0 ∧ win1_0.index t (2 : Fin 3) = 0
    ∧ win1_1.index t (0 : Fin 3) = t.val / 4 ∧ win1_1.index t (1 : Fin 3) = t.val % 4 ∧ win1_1.index t (2 : Fin 3) = 0
    ∧ win1_2.index t (0 : Fin 2) = 0 ∧ win1_2.index t (1 : Fin 2) = 0
    ∧ win1_3.index t (0 : Fin 1) = 0
    ∧ win1_4.index t (0 : Fin 1) = 0
    ∧ win1_5.index t (0 : Fin 4) = t.val / 4 ∧ win1_5.index t (1 : Fin 4) = t.val % 4 ∧ win1_5.index t (2 : Fin 4) = 0 ∧ win1_5.index t (3 : Fin 4) = 0 :=
  (by decide +kernel : ∀ t : Fin grid1.N, _)

/-- WHAT POINT t WRITES BACK: block t of the pair table of the region's inputs. The stored entry at place (i, j, l) of
    the block is the table's entry of the point's batch, the tile's i-th column word, row word j and label l. -/
theorem flushed5_eq (c : Dev nD) (t : Fin cfg1.N) :
    (dat1 V c).flushed 5 t = ((cfg1.win 5).blk t).view.read (Elt Ideal)
      (Spec.table (rowC V c) (colC V c) (lay2 V c) (bia1 V c) (bia2 V c)) := by
  show (cfg1.win 5).cut (grid1.coords t) ((dat1 V c).after 5 t) = _
  rw [after1_5]
  unfold out1_5
  rw [View.canon_unit_zero hz4]
  simp only [View.ld_unit_zero (S := S1x128x384) hz3, View.ld_unit_zero (S := S1x32x384) hz3,
    View.ld_unit_zero (S := S384x100) hz2, View.ld_unit_zero (S := S384) hz1, View.ld_unit_zero (S := S100) hz1]
  funext y
  obtain ⟨a, i, j, l, rfl⟩ : ∃ (a : Fin 1) (i : Fin 32) (j : Fin 128) (l : Fin 100), y = ix4 a i j l := ⟨y 0, y 1, y 2, y 3, eq_ix4 y⟩
  refine (Pay1.pay1_apply _ _ _ _ _ a i j l).trans ?_
  obtain ⟨e0, e1, e2, e3, e4, e5, e6, e7, e8, e9, e10, e11, e12, e13⟩ := idx_facts t
  have hout : ((cfg1.win 5).blk t).view.emb (ix4 a i j l) = ix4 (batchOf t) (colOf t i) j l := by
    funext x; apply Fin.ext
    match x with
    | ⟨0, _⟩ => show win1_5.index t (0 : Fin 4) * 1 + 1 * a.val = t.val / 4; have := a.isLt; omega
    | ⟨1, _⟩ => show win1_5.index t (1 : Fin 4) * 32 + 1 * i.val = t.val % 4 * 32 + i.val; omega
    | ⟨2, _⟩ => show win1_5.index t (2 : Fin 4) * 128 + 1 * j.val = j.val; omega
    | ⟨3, _⟩ => show win1_5.index t (3 : Fin 4) * 100 + 1 * l.val = l.val; omega
  show _ = Spec.table (rowC V c) (colC V c) (lay2 V c) (bia1 V c) (bia2 V c) (((cfg1.win 5).blk t).view.emb (ix4 a i j l))
  rw [hout]
  show _ = (∑ d : Fin 384, max (colC V c (ix3 (batchOf t) (colOf t i) d) + rowC V c (ix3 (batchOf t) j d) + bia1 V c (ix1 d)) 0
      * lay2 V c (ix2 d l)) + bia2 V c (ix1 l)
  have hb2 : ((cfg1.win 4).blk t).view.emb (ix1 l) = ix1 l := by
    funext x; apply Fin.ext
    match x with
    | ⟨0, _⟩ => show win1_4.index t (0 : Fin 1) * 100 + 1 * l.val = l.val; omega
  show _ + bia2 V c (((cfg1.win 4).blk t).view.emb (ix1 l)) = _
  rw [hb2]
  congr 1
  refine Finset.sum_congr rfl fun d _ => ?_
  have hq : ((cfg1.win 1).blk t).view.emb (ix3 (0 : Fin 1) i d) = ix3 (batchOf t) (colOf t i) d := by
    funext x; apply Fin.ext
    match x with
    | ⟨0, _⟩ => show win1_1.index t (0 : Fin 3) * 1 + 1 * (0 : Fin 1).val = t.val / 4; simp only [Fin.val_zero]; omega
    | ⟨1, _⟩ => show win1_1.index t (1 : Fin 3) * 32 + 1 * i.val = t.val % 4 * 32 + i.val; omega
    | ⟨2, _⟩ => show win1_1.index t (2 : Fin 3) * 384 + 1 * d.val = d.val; omega
  have hp : ((cfg1.win 0).blk t).view.emb (ix3 (0 : Fin 1) j d) = ix3 (batchOf t) j d := by
    funext x; apply Fin.ext
    match x with
    | ⟨0, _⟩ => show win1_0.index t (0 : Fin 3) * 1 + 1 * (0 : Fin 1).val = t.val / 4; simp only [Fin.val_zero]; omega
    | ⟨1, _⟩ => show win1_0.index t (1 : Fin 3) * 128 + 1 * j.val = j.val; omega
    | ⟨2, _⟩ => show win1_0.index t (2 : Fin 3) * 384 + 1 * d.val = d.val; omega
  have hb1 : ((cfg1.win 3).blk t).view.emb (ix1 d) = ix1 d := by
    funext x; apply Fin.ext
    match x with
    | ⟨0, _⟩ => show win1_3.index t (0 : Fin 1) * 384 + 1 * d.val = d.val; omega
  have hw : ((cfg1.win 2).blk t).view.emb (ix2 d l) = ix2 d l := by
    funext x; apply Fin.ext
    match x with
    | ⟨0, _⟩ => show win1_2.index t (0 : Fin 2) * 384 + 1 * d.val = d.val; omega
    | ⟨1, _⟩ => show win1_2.index t (1 : Fin 2) * 100 + 1 * l.val = l.val; omega
  show max (colC V c (((cfg1.win 1).blk t).view.emb (ix3 (0 : Fin 1) i d)) + rowC V c (((cfg1.win 0).blk t).view.emb (ix3 (0 : Fin 1) j d))
      + bia1 V c (((cfg1.win 3).blk t).view.emb (ix1 d))) 0 * lay2 V c (((cfg1.win 2).blk t).view.emb (ix2 d l)) = _
  rw [hq, hp, hb1, hw]

/-- An entry of the result array is in point t's block iff each coordinate is in the block's range. -/
theorem mem_blk5 (t : Fin cfg1.N) (i : S8x128x128x100.Idx) :
    i ∈ ((cfg1.win 5).blk t).view.set ↔ ∀ a : Fin 4, win1_5.index t a * S1x32x128x100.size a ≤ (i a).val ∧ (i a).val < win1_5.index t a * S1x32x128x100.size a + S1x32x128x100.size a := by
  show i ∈ ((View.whole main_v3).slice (win1_5.rect t)).set ↔ _
  rw [View.set_slice_whole, Rect.mem_set_unit]
  exact Iff.rfl

/-- Every entry (b, i, j, l) lies in the block the point of batch b and tile i / 32 writes back: the blocks tile the
    array. -/
theorem cover5 (i : S8x128x128x100.Idx) : ∃ t : Fin cfg1.N, (cfg1.win 5).flush t = true ∧ i ∈ ((cfg1.win 5).blk t).view.set := by
  have h0 : (i 0).val < 8 := (i 0).isLt
  have h1 : (i 1).val < 128 := (i 1).isLt
  have h2 : (i 2).val < 128 := (i 2).isLt
  have h3 : (i 3).val < 100 := (i 3).isLt
  refine ⟨pointOf ⟨(i 0).val, h0⟩ ⟨(i 1).val / 32, by omega⟩, flush1_5 _, ?_⟩
  rw [mem_blk5]
  obtain ⟨e0, e1, e2, e3, e4, e5, e6, e7, e8, e9, e10, e11, e12, e13⟩ := idx_facts (pointOf ⟨(i 0).val, h0⟩ ⟨(i 1).val / 32, by omega⟩)
  have hv : (pointOf ⟨(i 0).val, h0⟩ ⟨(i 1).val / 32, by omega⟩).val = (i 0).val * 4 + (i 1).val / 32 := rfl
  intro a
  match a with
  | ⟨0, _⟩ => show win1_5.index _ (0 : Fin 4) * 1 ≤ (i 0).val ∧ (i 0).val < win1_5.index _ (0 : Fin 4) * 1 + 1; omega
  | ⟨1, _⟩ => show win1_5.index _ (1 : Fin 4) * 32 ≤ (i 1).val ∧ (i 1).val < win1_5.index _ (1 : Fin 4) * 32 + 32; omega
  | ⟨2, _⟩ => show win1_5.index _ (2 : Fin 4) * 128 ≤ (i 2).val ∧ (i 2).val < win1_5.index _ (2 : Fin 4) * 128 + 128; omega
  | ⟨3, _⟩ => show win1_5.index _ (3 : Fin 4) * 100 ≤ (i 3).val ∧ (i 3).val < win1_5.index _ (3 : Fin 4) * 100 + 100; omega

/-- THE RESULT ARRAY after the region: the pair table of the region's inputs, whole. -/
theorem final5 (c : Dev nD) : (dat1 V c).arrAt 5 cfg1.N = Spec.table (rowC V c) (colC V c) (lay2 V c) (bia1 V c) (bia2 V c) :=
  (dat1 V c).arrAt_eq_of_cover 5 _ (fun t _ => flushed5_eq V c t) cover5

end Cert.KernelIdeal.Region1

end
-- ==== Proof.KernelValue.lean ====
/-
  The idealized kernel's result array, whole, as a function of the launch memory, on the extended reals.

  @main slices the first layer into its two halves, runs the first region (the two projections of the hidden vectors)
  and then the second (the pair table of those two projections, the second layer and the two biases). Reading the
  boundary contents back segment by segment: the result array is what the second region's write-backs leave; its first
  two inputs are what the first region's write-backs leave; everything else reaches its region as launched, the two
  halves as slices of the launched first layer.
-/
import proofs.«151811_j60971355734708_1_alg».proof.Proof.Gen.KernelIdeal.Frame
import proofs.«151811_j60971355734708_1_alg».proof.Proof.Region0
import proofs.«151811_j60971355734708_1_alg».proof.Proof.Region1
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.ShloMosaic.StableHlo
open Idealize.SL.Sem

variable (m : (ℓ : Loc nD τ sig) → Buf (Elt Ideal) ℓ) (ρ : Dev nD → PrngReg)

/-! ## What each region is entered from -/

/-- The hidden vectors reach the first region as launched: no host operation writes them. -/
theorem entry_hid (c : Dev nD) : Region0.hid (V1 m ρ) c = m ((c : Thread nD τ).loc main_arg0) := by
  show StableHlo.after hostOps0 (W0 m ρ c) (Proc.devRef .tc main_arg0) = _
  after_results <;> rfl

/-- The first half of the first layer, as the first region finds it: rows 0 … 767 of the launched layer. -/
theorem entry_wRow (c : Dev nD) : Region0.wRow (V1 m ρ) c
    = extractStridedSlice S768x384 ![0, 0] (m ((c : Thread nD τ).loc main_arg1)) slices_S1536x384_S768x384_0_0 := by
  show StableHlo.after hostOps0 (W0 m ρ c) (Proc.devRef .tc main_v0) = _
  after_results <;> rfl

/-- The second half: rows 768 … 1535 of the launched layer. -/
theorem entry_wCol (c : Dev nD) : Region0.wCol (V1 m ρ) c
    = extractStridedSlice S768x384 ![768, 0] (m ((c : Thread nD τ).loc main_arg1)) slices_S1536x384_S768x384_768_0 := by
  show StableHlo.after hostOps0 (W0 m ρ c) (Proc.devRef .tc main_v1) = _
  after_results <;> rfl

/-- The row contributions the second region finds are what the first region's first result window leaves. -/
theorem entry_rowC (c : Dev nD) : Region1.rowC (V2 m ρ) c = (dat0 (V1 m ρ) c).arrAt 3 cfg0.N := W2_arr m ρ c 3

/-- The column contributions likewise, from the second result window. -/
theorem entry_colC (c : Dev nD) : Region1.colC (V2 m ρ) c = (dat0 (V1 m ρ) c).arrAt 4 cfg0.N := W2_arr m ρ c 4

/-- The second layer reaches the second region as launched: the region only reads it, and nothing before writes it. -/
theorem entry_lay2 (c : Dev nD) : Region1.lay2 (V2 m ρ) c = m ((c : Thread nD τ).loc main_arg3) :=
  ((W3_arr m ρ c 2).trans (((dat1 (V2 m ρ) c).arrAt_in 2 rfl _).trans (A_eq1 (V2 m ρ) c 2))).symm.trans (W3_main_arg3 m ρ c)

/-- The hidden bias likewise. -/
theorem entry_bia1 (c : Dev nD) : Region1.bia1 (V2 m ρ) c = m ((c : Thread nD τ).loc main_arg2) :=
  ((W3_arr m ρ c 3).trans (((dat1 (V2 m ρ) c).arrAt_in 3 rfl _).trans (A_eq1 (V2 m ρ) c 3))).symm.trans (W3_main_arg2 m ρ c)

/-- The output bias likewise. -/
theorem entry_bia2 (c : Dev nD) : Region1.bia2 (V2 m ρ) c = m ((c : Thread nD τ).loc main_arg4) :=
  ((W3_arr m ρ c 4).trans (((dat1 (V2 m ρ) c).arrAt_in 4 rfl _).trans (A_eq1 (V2 m ρ) c 4))).symm.trans (W3_main_arg4 m ρ c)

/-! ## The result -/

/-- THE RESULT ARRAY at the last boundary: the pair table of the two projections of the launched hidden vectors by the
    two halves of the launched first layer, the launched second layer and the two launched biases. -/
theorem result_eq (c : Dev nD) :
    W3 m ρ c (Proc.devRef .tc main_v3)
      = Spec.table
          (Spec.proj (m ((c : Thread nD τ).loc main_arg0))
            (extractStridedSlice S768x384 ![0, 0] (m ((c : Thread nD τ).loc main_arg1)) slices_S1536x384_S768x384_0_0))
          (Spec.proj (m ((c : Thread nD τ).loc main_arg0))
            (extractStridedSlice S768x384 ![768, 0] (m ((c : Thread nD τ).loc main_arg1)) slices_S1536x384_S768x384_768_0))
          (m ((c : Thread nD τ).loc main_arg3)) (m ((c : Thread nD τ).loc main_arg2)) (m ((c : Thread nD τ).loc main_arg4)) := by
  refine (W3_arr m ρ c 5).trans ?_
  rw [Region1.final5 (V2 m ρ) c, entry_rowC, entry_colC, entry_lay2, entry_bia1, entry_bia2,
    Region0.final3 (V1 m ρ) c, Region0.final4 (V1 m ρ) c, entry_hid, entry_wRow, entry_wCol]

end Cert.KernelIdeal.Whole

end
-- ==== Proof.RefValue.lean ====
/-
  The reference's result is the pair table of the two projections, on the extended reals.

  The reference projects every word's hidden vector by the two halves of the first layer (two contractions over the 768
  hidden coordinates), broadcasts the row contribution p[b, j, ·] along the column words and the column contribution
  q[b, i, ·] along the row words, adds them and the bias, rectifies against zero, contracts the 384 hidden units with the
  second layer and adds its bias. Read at one entry (b, i, j, l) this is the sum over d of
  max(p[b, j, d] + q[b, i, d] + b1[d], 0) · w2[d, l], plus b2[l]. The pair table adds the two contributions in the other
  order; addition of extended reals is commutative, so the two agree entry by entry.
-/
import proofs.«151811_j60971355734708_1_alg».proof.Proof.Gen.ReferenceIdeal.Read
import proofs.«151811_j60971355734708_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The first contraction is the projection by the first half of the first layer. -/
theorem row_proj (x0 : (⟨S8x128x768, .f32⟩ : BufTy).Contents (Elt Ideal)) (x1 : (⟨S1536x384, .f32⟩ : BufTy).Contents (Elt Ideal)) :
    val_main_v2 (F := Ideal) x0 x1 = Spec.proj x0 (val_main_v0 (F := Ideal) x1) := by
  funext y
  obtain ⟨b, n, d, rfl⟩ : ∃ (b : Fin 8) (n : Fin 128) (d : Fin 384), y = ix3 b n d := ⟨y 0, y 1, y 2, eq_ix3 y⟩
  rw [val_main_v2_apply]
  show _ = ∑ k : Fin 768, x0 (ix3 b n k) * val_main_v0 (F := Ideal) x1 (ix2 k d)
  refine Finset.sum_congr rfl fun k _ => ?_
  have el : lidx_main_v2 (ix3 b n d) k = ix3 b n k := funext fun a => by
    match a with
    | ⟨0, _⟩ => rfl
    | ⟨1, _⟩ => rfl
    | ⟨2, _⟩ => rfl
  have er : ridx_main_v2 (ix3 b n d) k = ix2 k d := funext fun a => by
    match a with
    | ⟨0, _⟩ => rfl
    | ⟨1, _⟩ => rfl
  rw [el, er]

/-- The second contraction is the projection by the second half of the first layer. -/
theorem col_proj (x0 : (⟨S8x128x768, .f32⟩ : BufTy).Contents (Elt Ideal)) (x1 : (⟨S1536x384, .f32⟩ : BufTy).Contents (Elt Ideal)) :
    val_main_v3 (F := Ideal) x0 x1 = Spec.proj x0 (val_main_v1 (F := Ideal) x1) := by
  funext y
  obtain ⟨b, n, d, rfl⟩ : ∃ (b : Fin 8) (n : Fin 128) (d : Fin 384), y = ix3 b n d := ⟨y 0, y 1, y 2, eq_ix3 y⟩
  rw [val_main_v3_apply]
  show _ = ∑ k : Fin 768, x0 (ix3 b n k) * val_main_v1 (F := Ideal) x1 (ix2 k d)
  refine Finset.sum_congr rfl fun k _ => ?_
  have el : lidx_main_v3 (ix3 b n d) k = ix3 b n k := funext fun a => by
    match a with
    | ⟨0, _⟩ => rfl
    | ⟨1, _⟩ => rfl
    | ⟨2, _⟩ => rfl
  have er : ridx_main_v3 (ix3 b n d) k = ix2 k d := funext fun a => by
    match a with
    | ⟨0, _⟩ => rfl
    | ⟨1, _⟩ => rfl
  rw [el, er]

/-- The rectified hidden unit d of the pair (i, j) of batch b, as the reference forms it: the row contribution plus the
    column contribution plus the bias, against zero. -/
theorem hidden_apply (x0 : (⟨S8x128x768, .f32⟩ : BufTy).Contents (Elt Ideal)) (x1 : (⟨S1536x384, .f32⟩ : BufTy).Contents (Elt Ideal))
    (x2 : (⟨S384, .f32⟩ : BufTy).Contents (Elt Ideal)) (b : Fin 8) (i j : Fin 128) (d : Fin 384) :
    val_main_v12 (F := Ideal) x0 x1 x2 (ix4 b i j d)
      = max (val_main_v2 (F := Ideal) x0 x1 (ix3 b j d) + val_main_v3 (F := Ideal) x0 x1 (ix3 b i d) + x2 (ix1 d)) 0 := by
  rw [val_main_v12_apply, val_main_v11_apply, val_main_v8_apply, val_main_v6_apply, val_main_v4_apply, val_main_v7_apply,
    val_main_v5_apply, val_main_v10_apply, val_main_v9_apply, val_main_call0_v0_apply, val_main_call0_cst_apply]
  have e2 : idx_main_v4 (idx_main_v6 (ix4 b i j d)) = ix3 b j d := funext fun a => by
    match a with
    | ⟨0, _⟩ => rfl
    | ⟨1, _⟩ => rfl
    | ⟨2, _⟩ => rfl
  have e3 : idx_main_v5 (idx_main_v7 (ix4 b i j d)) = ix3 b i d := funext fun a => by
    match a with
    | ⟨0, _⟩ => rfl
    | ⟨1, _⟩ => rfl
    | ⟨2, _⟩ => rfl
  have e9 : idx_main_v9 (idx_main_v10 (ix4 b i j d)) = ix1 d := funext fun a => by
    match a with
    | ⟨0, _⟩ => rfl
  rw [e2, e3, e9, Ideal.maximumf_def, Ideal.addf_def, Ideal.addf_def, Ideal.ofBits_def, Ideal.ofBits_zero_f32]

/-- THE REFERENCE'S RESULT, whole: the pair table of the two projections, the second layer and the two biases. -/
theorem result_eq (x0 : (⟨S8x128x768, .f32⟩ : BufTy).Contents (Elt Ideal)) (x1 : (⟨S1536x384, .f32⟩ : BufTy).Contents (Elt Ideal))
    (x2 : (⟨S384, .f32⟩ : BufTy).Contents (Elt Ideal)) (x3 : (⟨S384x100, .f32⟩ : BufTy).Contents (Elt Ideal))
    (x4 : (⟨S100, .f32⟩ : BufTy).Contents (Elt Ideal)) :
    val_main_v16 (F := Ideal) x0 x1 x2 x3 x4
      = Spec.table (Spec.proj x0 (val_main_v0 (F := Ideal) x1)) (Spec.proj x0 (val_main_v1 (F := Ideal) x1)) x3 x2 x4 := by
  funext y
  obtain ⟨b, i, j, l, rfl⟩ : ∃ (b : Fin 8) (i j : Fin 128) (l : Fin 100), y = ix4 b i j l := ⟨y 0, y 1, y 2, y 3, eq_ix4 y⟩
  rw [val_main_v16_apply, val_main_v13_apply, val_main_v15_apply, val_main_v14_apply, Ideal.addf_def]
  have e4 : idx_main_v14 (idx_main_v15 (ix4 b i j l)) = ix1 l := funext fun a => by
    match a with
    | ⟨0, _⟩ => rfl
  rw [e4]
  show _ = (∑ d : Fin 384, Spec.hidden (Spec.proj x0 (val_main_v0 (F := Ideal) x1)) (Spec.proj x0 (val_main_v1 (F := Ideal) x1)) x2 b i j d
      * x3 (ix2 d l)) + x4 (ix1 l)
  congr 1
  refine Finset.sum_congr rfl fun d _ => ?_
  have el : lidx_main_v13 (ix4 b i j l) d = ix4 b i j d := funext fun a => by
    match a with
    | ⟨0, _⟩ => rfl
    | ⟨1, _⟩ => rfl
    | ⟨2, _⟩ => rfl
    | ⟨3, _⟩ => rfl
  have er : ridx_main_v13 (ix4 b i j l) d = ix2 d l := funext fun a => by
    match a with
    | ⟨0, _⟩ => rfl
    | ⟨1, _⟩ => rfl
  rw [el, er, hidden_apply, row_proj, col_proj]
  unfold Spec.hidden
  rw [add_comm (Spec.proj x0 (val_main_v0 (F := Ideal) x1) (ix3 b j d))]

end Cert.ReferenceIdeal.RefValue

end
-- ==== Proof.lean ====
/-
  The certificate of the pair-table kernel against its jnp reference, over the extended reals.

  Both programs compute, for every batch b, column word i, row word j and label l,

      out[b, i, j, l] = sum over d of max(p[b, j, d] + q[b, i, d] + b1[d], 0) · W2[d, l] + b2[l],

  where p and q are the projections of the words' hidden vectors by the first and the second half of the first layer W1
  (sums over the 768 hidden coordinates). The kernel computes p and q batch by batch in a first region, and the table
  tile by tile (32 column words at a time) in a second one, adding q before p; the reference contracts, broadcasts and
  adds p before q. On the extended reals a change of float format is the identity, a matrix product into a zero
  accumulator and a general contraction are the same plain sums, and addition is commutative, so the two results are one
  function of the arguments, entry by entry (no finiteness of the inputs is used).

  The three frames: the two kernels' from the generated frame certificates; the reference's from its generated run with
  the result dropped. The idealization rewrote no operation, so `preserves` has nothing to state.
-/
import proofs.«151811_j60971355734708_1_alg».proof.Defs
import proofs.«151811_j60971355734708_1_alg».proof.Proof.Gen.Kernel
import proofs.«151811_j60971355734708_1_alg».proof.Proof.Gen.Kernel.Skeleton
import proofs.«151811_j60971355734708_1_alg».proof.Proof.Gen.Kernel.Launch
import proofs.«151811_j60971355734708_1_alg».proof.Proof.Gen.Kernel.Points
import proofs.«151811_j60971355734708_1_alg».proof.Proof.Gen.Kernel.Frame
import proofs.«151811_j60971355734708_1_alg».proof.Proof.Gen.KernelIdeal
import proofs.«151811_j60971355734708_1_alg».proof.Proof.Gen.KernelIdeal.Skeleton
import proofs.«151811_j60971355734708_1_alg».proof.Proof.Gen.KernelIdeal.Launch
import proofs.«151811_j60971355734708_1_alg».proof.Proof.Gen.KernelIdeal.Points
import proofs.«151811_j60971355734708_1_alg».proof.Proof.Gen.KernelIdeal.Frame
import proofs.«151811_j60971355734708_1_alg».proof.Proof.Gen.ReferenceIdeal
import proofs.«151811_j60971355734708_1_alg».proof.Proof.Gen.Pre_finite_inputs
import proofs.«151811_j60971355734708_1_alg».proof.Proof.Gen.ReferenceIdeal.Run
import proofs.«151811_j60971355734708_1_alg».proof.Proof.Gen.ReferenceIdeal.Read
import proofs.«151811_j60971355734708_1_alg».proof.Proof.KernelRun
import proofs.«151811_j60971355734708_1_alg».proof.Proof.KernelValue
import proofs.«151811_j60971355734708_1_alg».proof.Proof.RefValue
import Idealize.ShloMosaic.Adequacy
import Idealize.ShloMosaic.Init

noncomputable section

namespace Cert.Proof

open Idealize.ShloMosaic Idealize.SL.Sem

/-- Both programs cut the same first half out of the first layer: rows 0 … 767. -/
theorem first_half (w : (⟨Cert.ReferenceIdeal.S1536x384, .f32⟩ : BufTy).Contents (Elt Ideal)) :
    Cert.ReferenceIdeal.Read.val_main_v0 (F := Ideal) w
      = extractStridedSlice Cert.KernelIdeal.S768x384 ![0, 0] w Cert.KernelIdeal.Facts₀.slices_S1536x384_S768x384_0_0 := rfl

/-- And the same second half: rows 768 … 1535. -/
theorem second_half (w : (⟨Cert.ReferenceIdeal.S1536x384, .f32⟩ : BufTy).Contents (Elt Ideal)) :
    Cert.ReferenceIdeal.Read.val_main_v1 (F := Ideal) w
      = extractStridedSlice Cert.KernelIdeal.S768x384 ![768, 0] w Cert.KernelIdeal.Facts₀.slices_S1536x384_S768x384_768_0 := rfl

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the five arguments both programs end with the pair table of the two projections: the
    kernel by its two regions' write-backs read back to the launch memory, the reference by its run read entry by
    entry. -/
theorem algebraic : Cert.algebraic_KernelIdeal_ReferenceIdeal := by
  intro m ρ m' ρ' _ hagree
  refine ⟨fun c => Cert.Spec.table
      (Cert.Spec.proj (m ((c.tc : Thread Cert.KernelIdeal.nD Cert.KernelIdeal.τ).loc Cert.KernelIdeal.main_arg0))
        (extractStridedSlice Cert.KernelIdeal.S768x384 ![0, 0] (m ((c.tc : Thread Cert.KernelIdeal.nD Cert.KernelIdeal.τ).loc Cert.KernelIdeal.main_arg1)) Cert.KernelIdeal.Facts₀.slices_S1536x384_S768x384_0_0))
      (Cert.Spec.proj (m ((c.tc : Thread Cert.KernelIdeal.nD Cert.KernelIdeal.τ).loc Cert.KernelIdeal.main_arg0))
        (extractStridedSlice Cert.KernelIdeal.S768x384 ![768, 0] (m ((c.tc : Thread Cert.KernelIdeal.nD Cert.KernelIdeal.τ).loc Cert.KernelIdeal.main_arg1)) Cert.KernelIdeal.Facts₀.slices_S1536x384_S768x384_768_0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Whole.result_eq m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v16_eq, Cert.ReferenceIdeal.RefValue.result_eq, first_half, second_half,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
